-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S1024x65536 : Shape := ⟨2, ![1024, 65536]⟩
abbrev S65536 : Shape := ⟨1, ![65536]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024x65536 : S_.BroadcastsInDim S1024x65536 (![] : Fin 0 → Fin S1024x65536.rank)
  reducesTo_S1024x65536_S_d0_1 : S1024x65536.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  main_v18

def fn {F : FTy → Type} [FloatOps F] (main_arg0 : FVec F S32x1024 .f32) (main_arg1 : FVec F S1024x65536 .f32) (main_arg2 : FVec F S1024x65536 .f32) (main_arg3 : FVec F S65536 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024x65536 .f32 := Host.absf main_arg1
  let main_cst_0 : FVec F S_ .f32 := constant S_ .f32 0x7F800000#32
  let main_v5 : FVec F S1024x65536 .f32 := broadcastInDim S1024x65536 ![] bcast_S_S1024x65536 main_cst_0
  let main_v6 : IVec S1024x65536 1 := cmpf .olt main_v4 main_v5
  let main_c_1 : IVec S_ 1 := constantI S_ 1 1#1
  let main_v7 : IVec S_ 1 := (fun x v => Host.reduce IntOp.andi x v reducesTo_S1024x65536_S_d0_1 h_S_) main_v6 main_c_1
  let main_v8 : IVec S_ 1 := andi main_v3 main_v7
  let main_v9 : FVec F S1024x65536 .f32 := Host.absf main_arg2
  let main_cst_2 : FVec F S_ .f32 := constant S_ .f32 0x7F800000#32
  let main_v10 : FVec F S1024x65536 .f32 := broadcastInDim S1024x65536 ![] bcast_S_S1024x65536 main_cst_2
  let main_v11 : IVec S1024x65536 1 := cmpf .olt main_v9 main_v10
  let main_c_3 : IVec S_ 1 := constantI S_ 1 1#1
  let main_v12 : IVec S_ 1 := (fun x v => Host.reduce IntOp.andi x v reducesTo_S1024x65536_S_d0_1 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_v13 main_v16
-- ==== Kernel.lean ====
abbrev S32x1024 : Shape := ⟨2, ![32, 1024]⟩
abbrev S1024x65536 : Shape := ⟨2, ![1024, 65536]⟩
abbrev S65536 : Shape := ⟨1, ![65536]⟩
abbrev S32x65536 : Shape := ⟨2, ![32, 65536]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S1024x65536, .f32⟩
  | .hbm, ⟨2, _⟩ => ⟨S1024x65536, .f32⟩
  | .hbm, ⟨3, _⟩ => ⟨S65536, .f32⟩
  | .hbm, ⟨4, _⟩ => ⟨S32x65536, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024, .f32⟩
  | .local _ .vmem, ⟨6, _⟩ => ⟨S1024, .f32⟩
  | .local _ .vmem, ⟨7, _⟩ => ⟨S32x1024, .f32⟩
  | .local _ .vmem, ⟨8, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  inb_S32x1024_S32x1024_0_0 : ∀ a, (![0, 0] : Fin 2 → Nat) a + S32x1024.size a ≤ S32x1024.size a
  h_S32x1024 : 0 < S32x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x65536.size a
  hwx0_1 : ∀ i : grid0.Coords, EltTy.bits .f32 = 32 ∨ (Rect.block (s := S1024x65536) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x65536.size a
  hwx0_2 : ∀ i : grid0.Coords, EltTy.bits .f32 = 32 ∨ (Rect.block (s := S1024x65536) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S65536.size a
  hwx0_3 : ∀ i : grid0.Coords, EltTy.bits .f32 = 32 ∨ (Rect.block (s := S65536) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x65536.size a
  hwx0_4 : ∀ i : grid0.Coords, EltTy.bits .f32 = 32 ∨ (Rect.block (s := S32x65536) S32x1024.size (cc0_transform_4 i) (hinb0_4 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024 : Shape := ⟨2, ![32, 1024]⟩
abbrev S1024x65536 : Shape := ⟨2, ![1024, 65536]⟩
abbrev S65536 : Shape := ⟨1, ![65536]⟩
abbrev S32x65536 : Shape := ⟨2, ![32, 65536]⟩
abbrev S1x65536 : Shape := ⟨2, ![1, 65536]⟩

abbrev nBuf : Space → Nat
  | .hbm => 9
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x65536, .f32⟩
  | .hbm, ⟨2, _⟩ => ⟨S1024x65536, .f32⟩
  | .hbm, ⟨3, _⟩ => ⟨S65536, .f32⟩
  | .hbm, ⟨4, _⟩ => ⟨S1024x65536, .f32⟩
  | .hbm, ⟨5, _⟩ => ⟨S32x65536, .f32⟩
  | .hbm, ⟨6, _⟩ => ⟨S1x65536, .f32⟩
  | .hbm, ⟨7, _⟩ => ⟨S32x65536, .f32⟩
  | .hbm, ⟨8, _⟩ => ⟨S32x65536, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S1x65536_S32x65536_0_1 : S1x65536.BroadcastsInDim S32x65536 (![0, 1] : Fin 2 → Fin S32x65536.rank)
  dot_S32x1024_S1024x65536_S32x65536_1_0_0_1_n_n_wf : DotDims.WF S32x1024 S1024x65536 S32x65536 [1] [0] [0] [1] [] []

variable [Facts₀]

def dot_S32x1024_S1024x65536_S32x65536_1_0_0_1_n_n : DotDims S32x1024 S1024x65536 S32x65536 where
  lhsContracting := [1]
  rhsContracting := [0]
  lhsNonContracting := [0]
  rhsNonContracting := [1]
  lhsBatch := []
  rhsBatch := []
  wf := dot_S32x1024_S1024x65536_S32x65536_1_0_0_1_n_n_wf

class Facts : Prop extends Facts₀ where

variable [Facts]
-- ==== Proof.MaskedLinear.lean ====
/-
  The masked linear layer as ONE function of its four arrays. For `x : [32, 1024]`, `mask, w : [1024, 65536]` and
  `b : [65536]`, entry `(p, q)` of the result is

      Σ_{k < 1024}  x[p, k] · (w[k, q] · mask[k, q])   +   b[q]

  over the extended reals: row `p` of `x` against column `q` of the entrywise product of `w` and `mask`, plus the
  bias of column `q`. Column `q` of the result depends on column `q` of `w`, `mask` and `b` only, which is why
  the columns can be computed in independent groups of 1024. Both programs compute this function with the factors in
  this very order, so no law that would need finite entries (distributivity, cancellation) is used anywhere.
-/
import Idealize.ShloMosaic.PureOps.Ideal
import Idealize.ShloMosaic.Lib.ValueIdx

noncomputable section

namespace Cert.MaskedLinear

open Idealize.ShloMosaic Idealize.ShloMosaic.ValueIdx
open scoped BigOperators

/-- Entry `(p, q)`: `Σ_k x[p, k] · (w[k, q] · mask[k, q]) + b[q]`. -/
def maskedLinear (x : FVec Ideal ⟨2, ![32, 1024]⟩ .f32) (mask w : FVec Ideal ⟨2, ![1024, 65536]⟩ .f32)
    (b : FVec Ideal ⟨1, ![65536]⟩ .f32) : FVec Ideal ⟨2, ![32, 65536]⟩ .f32 :=
  fun i => (∑ k : Fin 1024, x (ix2 (i 0) k) * (w (ix2 k (i 1)) * mask (ix2 k (i 1)))) + b (ix1 (i 1))

end Cert.MaskedLinear

end
-- ==== Proof.ReferenceSide.lean ====
/-
  The reference program is the masked linear layer. Its five host operations are: the entrywise product
  `w · mask`; the matrix product of `x` with it, contracting `x`'s second axis against the product's first; `b`
  laid out as one row; that row repeated over the 32 rows; the sum of the two. Read at an index `(p, q)` these give
  `Σ_k x[p, k] · (w[k, q] · mask[k, q]) + b[q]`, the specification itself, once the operand indices each operation
  computes are recognised as the coordinate pairs `(p, k)`, `(k, q)` and the single coordinate `q`.
-/
import proofs.«178152_j82695300317332_1_alg».proof.Proof.Gen.ReferenceIdeal.Read
import proofs.«178152_j82695300317332_1_alg».proof.Proof.MaskedLinear

noncomputable section

namespace Cert.MaskedLinear.Reference

open Cert.ReferenceIdeal Cert.ReferenceIdeal.Read Idealize.ShloMosaic Idealize.ShloMosaic.ValueIdx
open scoped BigOperators

/-- The left operand of the product at output `(p, q)` and contraction coordinate `k` is read at `(p, k)`. -/
theorem left_index (i : S32x65536.Idx) (k : Fin 1024) : lidx_main_v1 i k = ix2 (i 0) k :=
  funext fun a => by match a with | ⟨0, _⟩ => rfl | ⟨1, _⟩ => rfl

/-- The right operand is read at `(k, q)`. -/
theorem right_index (i : S32x65536.Idx) (k : Fin 1024) : ridx_main_v1 i k = ix2 k (i 1) :=
  funext fun a => by match a with | ⟨0, _⟩ => rfl | ⟨1, _⟩ => rfl

/-- The bias, laid out as a row and repeated over the rows, is read at `q`. -/
theorem bias_index (i : S32x65536.Idx) : idx_main_v2 (idx_main_v3 i) = ix1 (i 1) :=
  funext fun a => by match a with | ⟨0, _⟩ => rfl

/-- The reference's last stage, as a function of the four argument arrays, is the masked linear layer. -/
theorem reference_eq (x0 : FVec Ideal S32x1024 .f32) (x1 x2 : FVec Ideal S1024x65536 .f32) (x3 : FVec Ideal S65536 .f32) :
    val_main_v4 (F := Ideal) x0 x1 x2 x3 = maskedLinear x0 x1 x2 x3 := by
  funext i
  rw [val_main_v4_apply, val_main_v1_apply, val_main_v3_apply, val_main_v2_apply]
  simp only [val_main_v0_apply, left_index, right_index, bias_index]
  rfl

end Cert.MaskedLinear.Reference

end
-- ==== Proof.BlockProduct.lean ====
/-
  What the kernel body computes from the four blocks it loads, read at one entry. The body multiplies the `w` block
  and the `mask` block entrywise (both `[1024, 1024]`: all rows, one group of 1024 columns), multiplies the whole
  `x` (`[32, 1024]`) by that product into a zero accumulator, and adds the `b` block (`[1024]`) laid out as one row
  and repeated over the 32 rows. At entry `(p, q)` of the `[32, 1024]` result that is

      Σ_{k < 1024}  x[p, k] · (wblk[k, q] · maskblk[k, q])   +   bblk[q].

  The matrix product contracts the left factor's second axis against the right factor's first, so at output `(p, q)`
  and contraction coordinate `k` the operands are read at `(p, k)` and `(k, q)`.
-/
import proofs.«178152_j82695300317332_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.MaskedLinear.Block

open Cert.KernelIdeal Cert.KernelIdeal.Gen Idealize.ShloMosaic Idealize.ShloMosaic.ValueIdx
open scoped BigOperators

/-! ## The block product's operand indices -/

/-- The left factor's row is the output's row. -/
theorem left_row (i : S32x1024.Idx) (q : dot_S32x1024_S1024x1024_S32x1024_1_0_0_1_n_n.contr.Idx) :
    (dot_S32x1024_S1024x1024_S32x1024_1_0_0_1_n_n.lhsIdx i q 0).val = (i 0).val := by
  unfold DotDims.lhsIdx
  rw [dif_neg (show ¬(0 : Fin S32x1024.rank) ∈ dot_S32x1024_S1024x1024_S32x1024_1_0_0_1_n_n.lhsBatch by decide), dif_pos (show (0 : Fin S32x1024.rank) ∈ dot_S32x1024_S1024x1024_S32x1024_1_0_0_1_n_n.lhsNonContracting by decide)]
  rfl

/-- The left factor's column is the contraction coordinate. -/
theorem left_col (i : S32x1024.Idx) (q : dot_S32x1024_S1024x1024_S32x1024_1_0_0_1_n_n.contr.Idx) :
    (dot_S32x1024_S1024x1024_S32x1024_1_0_0_1_n_n.lhsIdx i q 1).val = (q ⟨0, by decide⟩).val :=
  dot_S32x1024_S1024x1024_S32x1024_1_0_0_1_n_n.lhsIdx_val_of_single rfl i q

/-- The right factor's row is the contraction coordinate. -/
theorem right_row (i : S32x1024.Idx) (q : dot_S32x1024_S1024x1024_S32x1024_1_0_0_1_n_n.contr.Idx) :
    (dot_S32x1024_S1024x1024_S32x1024_1_0_0_1_n_n.rhsIdx i q 0).val = (q ⟨0, by decide⟩).val :=
  dot_S32x1024_S1024x1024_S32x1024_1_0_0_1_n_n.rhsIdx_val_of_single rfl i q

/-- The right factor's column is the output's column. -/
theorem right_col (i : S32x1024.Idx) (q : dot_S32x1024_S1024x1024_S32x1024_1_0_0_1_n_n.contr.Idx) :
    (dot_S32x1024_S1024x1024_S32x1024_1_0_0_1_n_n.rhsIdx i q 1).val = (i 1).val := by
  unfold DotDims.rhsIdx
  rw [dif_neg (show ¬(1 : Fin S1024x1024.rank) ∈ dot_S32x1024_S1024x1024_S32x1024_1_0_0_1_n_n.rhsBatch by decide), dif_pos (show (1 : Fin S1024x1024.rank) ∈ dot_S32x1024_S1024x1024_S32x1024_1_0_0_1_n_n.rhsNonContracting by decide)]
  rfl

/-- The `[32, 1024]` by `[1024, 1024]` product into a zero accumulator, at `(p, q)`: row `p` against column `q`. -/
theorem product_apply (l : FVec Ideal S32x1024 .f32) (r : FVec Ideal S1024x1024 .f32) (p : Fin 32) (q : Fin 1024) :
    FloatOps.matmul dot_S32x1024_S1024x1024_S32x1024_1_0_0_1_n_n none l r (constant (F := Ideal) S32x1024 .f32 0x00000000#32) (ix2 p q)
      = ∑ k : Fin 1024, l (ix2 p k) * r (ix2 k q) := by
  rw [Ideal.matmul_constant_zero_apply, ← Equiv.sum_comp (contrEquiv1 dot_S32x1024_S1024x1024_S32x1024_1_0_0_1_n_n 1024 rfl rfl).symm]
  refine Finset.sum_congr rfl fun k _ => ?_
  have hk := contrEquiv1_symm_val dot_S32x1024_S1024x1024_S32x1024_1_0_0_1_n_n 1024 rfl rfl k
  have el : dot_S32x1024_S1024x1024_S32x1024_1_0_0_1_n_n.lhsIdx (ix2 p q) ((contrEquiv1 dot_S32x1024_S1024x1024_S32x1024_1_0_0_1_n_n 1024 rfl rfl).symm k) = ix2 p k := funext fun a => Fin.ext (by
    match a with
    | ⟨0, _⟩ => exact left_row _ _
    | ⟨1, _⟩ => exact (left_col _ _).trans hk)
  have er : dot_S32x1024_S1024x1024_S32x1024_1_0_0_1_n_n.rhsIdx (ix2 p q) ((contrEquiv1 dot_S32x1024_S1024x1024_S32x1024_1_0_0_1_n_n 1024 rfl rfl).symm k) = ix2 k q := funext fun a => Fin.ext (by
    match a with
    | ⟨0, _⟩ => exact (right_row _ _).trans hk
    | ⟨1, _⟩ => exact right_col _ _)
  rw [el, er]

/-! ## The body's one stored value -/

/-- The value the body stores, at `(p, q)`, from the loaded `w` block `wb`, `mask` block `mb`, `x` block `xb` and
    `b` block `bb`. -/
theorem stored_apply (wb mb : Vec Ideal S1024x1024 .f32) (xb : Vec Ideal S32x1024 .f32) (bb : Vec Ideal S1024 .f32)
    (p : Fin 32) (q : Fin 1024) :
    k0_pay1 (F := Ideal) wb mb xb bb (ix2 p q)
      = (∑ k : Fin 1024, xb (ix2 p k) * (wb (ix2 k q) * mb (ix2 k q))) + bb (ix1 q) := by
  unfold k0_pay1
  simp only [matmul]
  rw [addf_apply, product_apply, broadcastTo_1b_ab_apply, shapeCast_a_1a_apply]
  rfl

end Cert.MaskedLinear.Block

end
-- ==== Proof.Tiles.lean ====
/-
  From the 64 column tiles to the whole result. The kernel runs on a grid of 64 points; at point `t` it is handed all
  of `x`, the columns `1024·t … 1024·t + 1023` of `w` and of `mask` (all 1024 rows), the same stretch of `b`, and it
  writes the same columns of the `[32, 65536]` result (all 32 rows). Entry `(p, q)` of what it writes is, by the body's
  arithmetic, `Σ_k x[p, k] · (w[k, 1024·t + q] · mask[k, 1024·t + q]) + b[1024·t + q]`: entry `(p, 1024·t + q)` of the
  masked linear layer. The 64 tiles cover every column (column `j` lies in tile `j / 1024`), so after the run the
  result array is the masked linear layer of the argument arrays.
-/
import proofs.«178152_j82695300317332_1_alg».proof.Proof.Gen.KernelIdeal.Value
import proofs.«178152_j82695300317332_1_alg».proof.Proof.BlockProduct
import proofs.«178152_j82695300317332_1_alg».proof.Proof.MaskedLinear

noncomputable section

namespace Cert.MaskedLinear.Tiles

open Cert.KernelIdeal Cert.KernelIdeal.Gen Cert.KernelIdeal.Value Idealize.ShloMosaic Idealize.ShloMosaic.TcCoe Idealize.SL.Sem
open Idealize.ShloMosaic.ValueIdx Cert.MaskedLinear Cert.MaskedLinear.Block
open Idealize.ShloMosaic.Pipeline (Dat)
open scoped BigOperators

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets1 : (![0] : Fin 1 → Nat) = fun _ => 0 := funext fun a => by fin_cases a <;> rfl

/-- Which block each window holds at point `t`, decided over the 64 points: `x` always its one block; `mask`, `w` and
    the result the block of all rows and column group `t`; `b` its stretch `t`. -/
theorem block_numbers : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 1) = t.val
    ∧ win0_4.index t (0 : Fin 2) = 0 ∧ win0_4.index t (1 : Fin 2) = t.val :=
  (by decide +kernel : ∀ t : Fin grid0.N, _)

theorem points : cfg0.N = 64 := by decide

/-- Column `q` of tile `t` is column `1024·t + q` of the whole array. -/
def col (t : Fin cfg0.N) (q : Fin 1024) : Fin 65536 :=
  ⟨t.val * 1024 + q.val, by have ht : t.val < 64 := points ▸ t.isLt; have hq := q.isLt; omega⟩

/-! ## Each block, read where the tile's columns lie -/

theorem x_block (c : Dev nD) (t : Fin cfg0.N) (p : Fin 32) (k : Fin 1024) :
    iblk m c 0 t (ix2 p k) = V m c main_arg0 (ix2 p k) := by
  obtain ⟨e0, e1, -⟩ := block_numbers t
  show V m c main_arg0 (((cfg0.win 0).blk t).view.emb (ix2 p k)) = V m c main_arg0 (ix2 p k)
  refine congrArg (V m c main_arg0) (funext fun a => Fin.ext ?_)
  match a with
  | ⟨0, _⟩ => show win0_0.index t (0 : Fin 2) * 32 + 1 * p.val = p.val; omega
  | ⟨1, _⟩ => show win0_0.index t (1 : Fin 2) * 1024 + 1 * k.val = k.val; omega

theorem mask_block (c : Dev nD) (t : Fin cfg0.N) (k q : Fin 1024) :
    iblk m c 1 t (ix2 k q) = V m c main_arg1 (ix2 k (col t q)) := by
  obtain ⟨-, -, e0, e1, -⟩ := block_numbers t
  show V m c main_arg1 (((cfg0.win 1).blk t).view.emb (ix2 k q)) = V m c main_arg1 (ix2 k (col t q))
  refine congrArg (V m c main_arg1) (funext fun a => Fin.ext ?_)
  match a with
  | ⟨0, _⟩ => show win0_1.index t (0 : Fin 2) * 1024 + 1 * k.val = k.val; omega
  | ⟨1, _⟩ => show win0_1.index t (1 : Fin 2) * 1024 + 1 * q.val = t.val * 1024 + q.val; omega

theorem w_block (c : Dev nD) (t : Fin cfg0.N) (k q : Fin 1024) :
    iblk m c 2 t (ix2 k q) = V m c main_arg2 (ix2 k (col t q)) := by
  obtain ⟨-, -, -, -, e0, e1, -⟩ := block_numbers t
  show V m c main_arg2 (((cfg0.win 2).blk t).view.emb (ix2 k q)) = V m c main_arg2 (ix2 k (col t q))
  refine congrArg (V m c main_arg2) (funext fun a => Fin.ext ?_)
  match a with
  | ⟨0, _⟩ => show win0_2.index t (0 : Fin 2) * 1024 + 1 * k.val = k.val; omega
  | ⟨1, _⟩ => show win0_2.index t (1 : Fin 2) * 1024 + 1 * q.val = t.val * 1024 + q.val; omega

theorem b_block (c : Dev nD) (t : Fin cfg0.N) (q : Fin 1024) :
    iblk m c 3 t (ix1 q) = V m c main_arg3 (ix1 (col t q)) := by
  obtain ⟨-, -, -, -, -, -, e0, -⟩ := block_numbers t
  show V m c main_arg3 (((cfg0.win 3).blk t).view.emb (ix1 q)) = V m c main_arg3 (ix1 (col t q))
  refine congrArg (V m c main_arg3) (funext fun a => Fin.ext ?_)
  match a with
  | ⟨0, _⟩ => show win0_3.index t (0 : Fin 1) * 1024 + 1 * q.val = t.val * 1024 + q.val; omega

/-- Entry `(p, q)` of the result's tile `t` is entry `(p, 1024·t + q)` of the result. -/
theorem out_index (t : Fin cfg0.N) (p : Fin 32) (q : Fin 1024) :
    ((cfg0.win 4).blk t).view.emb (ix2 p q) = ix2 p (col t q) := by
  obtain ⟨-, -, -, -, -, -, -, e0, e1⟩ := block_numbers t
  refine funext fun a => Fin.ext ?_
  match a with
  | ⟨0, _⟩ => show win0_4.index t (0 : Fin 2) * 32 + 1 * p.val = p.val; omega
  | ⟨1, _⟩ => show win0_4.index t (1 : Fin 2) * 1024 + 1 * q.val = t.val * 1024 + q.val; omega

/-! ## What point `t` writes back -/

/-- WHAT POINT `t` WRITES BACK is tile `t` of the masked linear layer of the argument arrays. -/
theorem flushed_eq (c : Dev nD) (t : Fin cfg0.N) :
    (dats m 0 c).flushed 4 t = ((cfg0.win 4).blk t).view.read (Elt Ideal)
      (maskedLinear (V m c main_arg0) (V m c main_arg1) (V m c main_arg2) (V m c main_arg3)) := by
  rw [flushed4]
  unfold out0_4
  rw [View.canon_unit_zero zero_offsets2]
  simp only [View.ld_unit_zero (S := S1024x1024) zero_offsets2, View.ld_unit_zero (S := S32x1024) zero_offsets2,
    View.ld_unit_zero (S := S1024) zero_offsets1]
  funext j
  obtain ⟨p, q, rfl⟩ : ∃ (p : Fin 32) (q : Fin 1024), j = ix2 p q := ⟨j 0, j 1, eq_ix2 j⟩
  show k0_pay1 (F := Ideal) (iblk m c 2 t) (iblk m c 1 t) (iblk m c 0 t) (iblk m c 3 t) (ix2 p q)
    = maskedLinear (V m c main_arg0) (V m c main_arg1) (V m c main_arg2) (V m c main_arg3) (((cfg0.win 4).blk t).view.emb (ix2 p q))
  refine (stored_apply (iblk m c 2 t) (iblk m c 1 t) (iblk m c 0 t) (iblk m c 3 t) p q).trans ?_
  refine Eq.trans ?_ (congrArg (maskedLinear (V m c main_arg0) (V m c main_arg1) (V m c main_arg2) (V m c main_arg3)) (out_index t p q)).symm
  exact congrArg₂ (· + ·)
    (Finset.sum_congr rfl fun k _ => congrArg₂ (· * ·) (x_block m c t p k)
      (congrArg₂ (· * ·) (w_block m c t k q) (mask_block m c t k q)))
    (b_block m c t q)

/-! ## The tiles cover the result -/

/-- An index of the result is in tile `t` iff each coordinate is in the tile's range on its axis. -/
theorem mem_tile (t : Fin cfg0.N) (i : S32x65536.Idx) :
    i ∈ ((cfg0.win 4).blk t).view.set ↔ ∀ a : Fin 2, win0_4.index t a * S32x1024.size a ≤ (i a).val ∧ (i a).val < win0_4.index t a * S32x1024.size a + S32x1024.size a := by
  show i ∈ ((View.whole main_v0).slice (win0_4.rect t)).set ↔ _
  rw [View.set_slice_whole, Rect.mem_set_unit]
  exact Iff.rfl

/-- Every index of the result lies in the tile of its column group, `j / 1024`. -/
theorem cover (i : S32x65536.Idx) :
    ∃ t : Fin cfg0.N, (cfg0.win 4).flush t = true ∧ i ∈ ((cfg0.win 4).blk t).view.set := by
  have hi0 : (i 0).val < 32 := (i 0).isLt
  have hi1 : (i 1).val < 65536 := (i 1).isLt
  obtain ⟨t, ht⟩ : ∃ t : Fin cfg0.N, t.val = (i 1).val / 1024 := ⟨⟨(i 1).val / 1024, by rw [points]; omega⟩, rfl⟩
  obtain ⟨-, -, -, -, -, -, -, e0, e1⟩ := block_numbers t
  refine ⟨t, flush0_4 t, ?_⟩
  rw [mem_tile]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 1024 ≤ (i 1).val ∧ (i 1).val < win0_4.index t (1 : Fin 2) * 1024 + 1024; omega

/-! ## The result array, and the run -/

/-- THE RESULT ARRAY after the run is the masked linear layer of the argument arrays. -/
theorem final (c : Dev nD) :
    (dats m 0 c).arrAt 4 cfg0.N = maskedLinear (V m c main_arg0) (V m c main_arg1) (V m c main_arg2) (V m c main_arg3) :=
  (dats m 0 c).arrAt_eq_of_cover 4 _ (fun t _ => flushed_eq m c t) cover

/-- The kernel's run: the result at the masked linear layer of the arguments, the arguments unchanged. -/
theorem run : θ_run defs (onTc (τ := τ) (main (F := Ideal))) ⟨m, fun _ => 0, ρ⟩ fun r => ∀ c : Dev nD,
      r.2.mem ((c : Thread nD τ).loc main_v0) = maskedLinear (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.MaskedLinear.Tiles

end
-- ==== Proof.lean ====
/-
  A linear layer with a sparsity mask on its weights: for `x : [32, 1024]`, `mask, w : [1024, 65536]`, `b : [65536]`,

      out[p, q]  =  Σ_{k < 1024}  x[p, k] · (w[k, q] · mask[k, q])   +   b[q].

  The kernel computes it in 64 independent column tiles of width 1024: tile `t` multiplies the columns
  `1024·t … 1024·t + 1023` of `w` and `mask` entrywise, multiplies all of `x` by that `[1024, 1024]` product, adds the
  same stretch of `b` to every row, and writes those columns of the result. The reference forms `w · mask` whole,
  takes one `[32, 1024]` by `[1024, 65536]` product and adds `b` repeated over the rows. Over the extended reals the
  two are the same function entry by entry, term by term: column `q` of the result depends only on column `q` of
  `w`, `mask` and `b`, the tiles cover every column, and inside a tile the kernel's sum over `k` is the reference's
  sum with the factors in the same order. No entry needs to be finite for that, so the precondition is not opened.

  The kernel and its idealization have the same text (the idealization rewrote nothing), so that claim is trivial; each
  program's run leaves its arguments as they were.
-/
import proofs.«178152_j82695300317332_1_alg».proof.Defs
import proofs.«178152_j82695300317332_1_alg».proof.Proof.Gen.Kernel
import proofs.«178152_j82695300317332_1_alg».proof.Proof.Gen.Kernel.Skeleton
import proofs.«178152_j82695300317332_1_alg».proof.Proof.Gen.Kernel.Launch
import proofs.«178152_j82695300317332_1_alg».proof.Proof.Gen.Kernel.Points
import proofs.«178152_j82695300317332_1_alg».proof.Proof.Gen.Kernel.Frame
import proofs.«178152_j82695300317332_1_alg».proof.Proof.Gen.KernelIdeal
import proofs.«178152_j82695300317332_1_alg».proof.Proof.Gen.KernelIdeal.Skeleton
import proofs.«178152_j82695300317332_1_alg».proof.Proof.Gen.KernelIdeal.Launch
import proofs.«178152_j82695300317332_1_alg».proof.Proof.Gen.KernelIdeal.Points
import proofs.«178152_j82695300317332_1_alg».proof.Proof.Gen.KernelIdeal.Frame
import proofs.«178152_j82695300317332_1_alg».proof.Proof.Gen.ReferenceIdeal
import proofs.«178152_j82695300317332_1_alg».proof.Proof.Gen.Pre_finite_inputs
import proofs.«178152_j82695300317332_1_alg».proof.Proof.Gen.KernelIdeal.Value
import proofs.«178152_j82695300317332_1_alg».proof.Proof.Gen.ReferenceIdeal.Run
import proofs.«178152_j82695300317332_1_alg».proof.Proof.Gen.ReferenceIdeal.Read
import proofs.«178152_j82695300317332_1_alg».proof.Proof.MaskedLinear
import proofs.«178152_j82695300317332_1_alg».proof.Proof.ReferenceSide
import proofs.«178152_j82695300317332_1_alg».proof.Proof.BlockProduct
import proofs.«178152_j82695300317332_1_alg».proof.Proof.Tiles
import Idealize.ShloMosaic.Adequacy
import Idealize.ShloMosaic.Init

noncomputable section

namespace Cert.Proof

open Idealize.ShloMosaic Idealize.ShloMosaic.TcCoe Idealize.SL.Sem Cert.MaskedLinear

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the masked linear layer of them (the tiles assembled) and
    so does the reference's (its five operations read at an index). -/
theorem algebraic : Cert.algebraic_KernelIdeal_ReferenceIdeal := by
  intro m ρ m' ρ' _ hagree
  refine ⟨_, Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Reference.reference_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
